-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S5000x128 : Shape := ⟨2, ![5000, 128]⟩

abbrev nBuf : Space → Nat
  | .hbm => 87
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x800000, .i32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x128, .f32⟩
  | .hbm, ⟨78, _⟩ => ⟨S850000x1, .f32⟩
  | .hbm, ⟨79, _⟩ => ⟨S850000x128, .f32⟩
  | .hbm, ⟨80, _⟩ => ⟨S850000x128, .f32⟩
  | .hbm, ⟨81, _⟩ => ⟨S_, .f32⟩
  | .hbm, ⟨82, _⟩ => ⟨S50000x128, .f32⟩
  | .hbm, ⟨83, _⟩ => ⟨S850000x1, .i32⟩
  | .hbm, ⟨84, _⟩ => ⟨S50000x128, .f32⟩
  | .hbm, ⟨85, _⟩ => ⟨S1x128, .f32⟩
  | .hbm, ⟨86, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S2000x128_S2000x128 : S2000x128.ShapeCasts S2000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x800000, .i32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x128, .f32⟩
  | .hbm, ⟨82, _⟩ => ⟨S850000x1, .f32⟩
  | .hbm, ⟨83, _⟩ => ⟨S850000x128, .f32⟩
  | .hbm, ⟨84, _⟩ => ⟨S850000x128, .f32⟩
  | .hbm, ⟨85, _⟩ => ⟨S_, .f32⟩
  | .hbm, ⟨86, _⟩ => ⟨S50000x128, .f32⟩
  | .hbm, ⟨87, _⟩ => ⟨S850000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.MatmulRegions.lean ====
/-
  The two dense products. Each product kernel runs over 25 row blocks of 2000 rows: a point multiplies its row block of
  the left array by the whole 128 x 128 right array into a zero accumulator, so entry (r, q) of what it writes back is the
  sum over k of left (r, k) * right (k, q) -- the same sum the whole-array product has at that entry. The 25 blocks tile
  the 50000 rows, so after the region the output array IS the whole-array product of the two arrays the region read.
-/
import proofs.«144677_j40587440947893_1_alg».proof.Proof.Gen.KernelIdeal.Frame
import proofs.«144677_j40587440947893_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.MatmulRegions

open Idealize.ShloMosaic Idealize.ShloMosaic.TcCoe Idealize.SL.Sem
open Cert.KernelIdeal Cert.KernelIdeal.Gen
open Idealize.ShloMosaic.Pipeline (Dat)

theorem origin_zero : (![0, 0] : Fin 2 → Nat) = fun _ => 0 := funext fun a => by fin_cases a <;> rfl

/-! ## The block product's operand indices -/

/-- Position `k` of row `j 0` of the left block. -/
abbrev rowAt (j : S2000x128.Idx) (k : Fin 128) : S2000x128.Idx := fun a => match a with
  | ⟨0, _⟩ => ⟨(j 0).val, (j 0).isLt⟩
  | ⟨1, _⟩ => ⟨k.val, k.isLt⟩
/-- Position `k` of column `j 1` of the right block. -/
abbrev colAt (j : S2000x128.Idx) (k : Fin 128) : S128x128.Idx := fun a => match a with
  | ⟨0, _⟩ => ⟨k.val, k.isLt⟩
  | ⟨1, _⟩ => ⟨(j 1).val, (j 1).isLt⟩

theorem lhs_axis0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_axis1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_axis0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_axis1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

variable (V : (c : Dev nD) → (b : Ref sig .tc) → Buf (Elt Ideal) ((c : Thread nD τ).loc b))

/-! ## Region 0: the row block product against the whole right factor -/

/-- Each row block of the left factor moves with the output's block down the rows; the right factor is one block. -/
theorem blocks0 : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 24 :=
  (by decide +kernel : ∀ t : Fin grid0.N, _)

/-- Every one of the 25 row blocks is some grid point's. -/
theorem blocks0_onto : ∀ q : Fin 25, ∃ t : Fin cfg0.N, win0_2.index t = ![q.val, 0] :=
  (by decide +kernel : ∀ q : Fin 25, ∃ t : Fin grid0.N, win0_2.index t = ![q.val, 0])

/-- The body's one stored value at an entry: the sum over the 128 inner positions of the left block's row against the
    right block's column (the zero accumulator adds nothing, the narrowing to bf16 is the identity on extended reals). -/
theorem stored0_apply (x0 : Vec Ideal S2000x128 .f32) (x1 : Vec Ideal S128x128 .f32) (j : S2000x128.Idx) :
    k0_pay1 (F := Ideal) x0 x1 j = ∑ k : Fin 128, x0 (rowAt j k) * x1 (colAt j k) := by
  unfold k0_pay1
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = rowAt j k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx j ((ValueIdx.contrEquiv1 dot_S2000x128_S128x128_S2000x128_1_0_0_1_n_n 128 rfl rfl).symm k) = colAt j k := funext fun a => Fin.ext (by
    match a with
    | ⟨0, _⟩ => exact (rhs_axis0 _ _).trans hk
    | ⟨1, _⟩ => exact rhs_axis1 _ _)
  show x0 _ * x1 _ = _
  rw [el, er]

/-- What grid point `t` writes back is block `t` of the whole product of the two arrays as the region finds them. -/
theorem flushed0_eq (c : Dev nD) (t : Fin cfg0.N) :
    (dat0 V c).flushed 2 t = ((cfg0.win 2).blk t).view.read (Elt Ideal)
      (Cert.ReferenceIdeal.ReadP.val_main_v32 (F := Ideal) (V c main_arg0) (V c main_arg1)) := by
  show (cfg0.win 2).cut (grid0.coords t) ((dat0 V c).after 2 t) = _
  rw [after0_2]
  unfold out0_2
  rw [View.canon_unit_zero origin_zero]
  simp only [View.ld_unit_zero (S := S2000x128) origin_zero, View.ld_unit_zero (S := S128x128) origin_zero]
  obtain ⟨e0, e1, e2, e3, e4, e5⟩ := blocks0 t
  funext j
  refine (stored0_apply (iblk0 V c 0 t) (iblk0 V c 1 t) j).trans ?_
  refine Eq.trans ?_ (Cert.ReferenceIdeal.ReadP.val_main_v32_apply (V c main_arg0) (V c main_arg1) (((cfg0.win 2).blk t).view.emb j)).symm
  refine Finset.sum_congr rfl fun k _ => ?_
  have hl : iblk0 V c 0 t (rowAt j k) = V c main_arg0 (Cert.ReferenceIdeal.ReadP.lidx_main_v32 (((cfg0.win 2).blk t).view.emb j) k) := by
    show V c main_arg0 (((cfg0.win 0).blk t).view.emb (rowAt j k)) = _
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have hr : iblk0 V c 1 t (colAt j k) = V c main_arg1 (Cert.ReferenceIdeal.ReadP.ridx_main_v32 (((cfg0.win 2).blk t).view.emb j) k) := by
    show V c main_arg1 (((cfg0.win 1).blk t).view.emb (colAt j k)) = _
    refine congrArg (V c main_arg1) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [hl, hr]

/-- An index of the output array is in point `t`'s block iff each coordinate is in the block's range on its axis. -/
theorem mem_block0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- Row `r` of the output lies in the block of the point whose block index is `r / 2000`. -/
theorem covered0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := blocks0_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After region 0 its output array is the whole product of the two arrays it read. -/
theorem region0_eq (c : Dev nD) :
    (dat0 V c).arrAt 2 cfg0.N = Cert.ReferenceIdeal.ReadP.val_main_v32 (F := Ideal) (V c main_arg0) (V c main_arg1) :=
  (dat0 V c).arrAt_eq_of_cover 2 _ (fun t _ => flushed0_eq V c t) covered0

/-! ## Region 2: the row block product against the whole right factor -/

/-- Each row block of the left factor moves with the output's block down the rows; the right factor is one block. -/
theorem blocks2 : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 24 :=
  (by decide +kernel : ∀ t : Fin grid2.N, _)

/-- Every one of the 25 row blocks is some grid point's. -/
theorem blocks2_onto : ∀ q : Fin 25, ∃ t : Fin cfg2.N, win2_2.index t = ![q.val, 0] :=
  (by decide +kernel : ∀ q : Fin 25, ∃ t : Fin grid2.N, win2_2.index t = ![q.val, 0])

/-- The body's one stored value at an entry: the sum over the 128 inner positions of the left block's row against the
    right block's column (the zero accumulator adds nothing, the narrowing to bf16 is the identity on extended reals, and so is the cast to the same shape). -/
theorem stored2_apply (x0 : Vec Ideal S2000x128 .f32) (x1 : Vec Ideal S128x128 .f32) (j : S2000x128.Idx) :
    k2_pay1 (F := Ideal) x0 x1 j = ∑ k : Fin 128, x0 (rowAt j k) * x1 (colAt j k) := by
  unfold k2_pay1
  rw [shapeCast_self]
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = rowAt j k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx j ((ValueIdx.contrEquiv1 dot_S2000x128_S128x128_S2000x128_1_0_0_1_n_n 128 rfl rfl).symm k) = colAt j k := funext fun a => Fin.ext (by
    match a with
    | ⟨0, _⟩ => exact (rhs_axis0 _ _).trans hk
    | ⟨1, _⟩ => exact rhs_axis1 _ _)
  show x0 _ * x1 _ = _
  rw [el, er]

/-- What grid point `t` writes back is block `t` of the whole product of the two arrays as the region finds them. -/
theorem flushed2_eq (c : Dev nD) (t : Fin cfg2.N) :
    (dat2 V c).flushed 2 t = ((cfg2.win 2).blk t).view.read (Elt Ideal)
      (Cert.ReferenceIdeal.ReadP.val_main_v32 (F := Ideal) (V c main_v47) (V c main_arg3)) := by
  show (cfg2.win 2).cut (grid2.coords t) ((dat2 V c).after 2 t) = _
  rw [after2_2]
  unfold out2_2
  rw [View.canon_unit_zero origin_zero]
  simp only [View.ld_unit_zero (S := S2000x128) origin_zero, View.ld_unit_zero (S := S128x128) origin_zero]
  obtain ⟨e0, e1, e2, e3, e4, e5⟩ := blocks2 t
  funext j
  refine (stored2_apply (iblk2 V c 0 t) (iblk2 V c 1 t) j).trans ?_
  refine Eq.trans ?_ (Cert.ReferenceIdeal.ReadP.val_main_v32_apply (V c main_v47) (V c main_arg3) (((cfg2.win 2).blk t).view.emb j)).symm
  refine Finset.sum_congr rfl fun k _ => ?_
  have hl : iblk2 V c 0 t (rowAt j k) = V c main_v47 (Cert.ReferenceIdeal.ReadP.lidx_main_v32 (((cfg2.win 2).blk t).view.emb j) k) := by
    show V c main_v47 (((cfg2.win 0).blk t).view.emb (rowAt j k)) = _
    refine congrArg (V c main_v47) (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  have hr : iblk2 V c 1 t (colAt j k) = V c main_arg3 (Cert.ReferenceIdeal.ReadP.ridx_main_v32 (((cfg2.win 2).blk t).view.emb j) k) := by
    show V c main_arg3 (((cfg2.win 1).blk t).view.emb (colAt j k)) = _
    refine congrArg (V c main_arg3) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [hl, hr]

/-- An index of the output array is in point `t`'s block iff each coordinate is in the block's range on its axis. -/
theorem mem_block2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v48).slice (win2_2.rect t)).set ↔ _
  rw [View.set_slice_whole, Rect.mem_set_unit]
  exact Iff.rfl

/-- Row `r` of the output lies in the block of the point whose block index is `r / 2000`. -/
theorem covered2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := blocks2_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_block2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- After region 2 its output array is the whole product of the two arrays it read. -/
theorem region2_eq (c : Dev nD) :
    (dat2 V c).arrAt 2 cfg2.N = Cert.ReferenceIdeal.ReadP.val_main_v32 (F := Ideal) (V c main_v47) (V c main_arg3) :=
  (dat2 V c).arrAt_eq_of_cover 2 _ (fun t _ => flushed2_eq V c t) covered2

end Cert.KernelIdeal.MatmulRegions

end
-- ==== Proof.BiasRegions.lean ====
/-
  The two bias kernels. Each runs over 10 row blocks of 5000 rows: a point adds the one-row bias array, broadcast down its
  block, to its block of the aggregated array, and the first of the two kernels then takes the maximum with zero. Entry
  (r, q) of what a point writes back depends on entry (r, q) of the aggregated array and entry (0, q) of the bias row only,
  so it is block `t` of one whole-array function; the 10 blocks tile the 50000 rows, so after the region the output array
  IS that function of the two arrays the region read.
-/
import proofs.«144677_j40587440947893_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.BiasRegions

open Idealize.ShloMosaic Idealize.ShloMosaic.TcCoe Idealize.SL.Sem
open Cert.KernelIdeal Cert.KernelIdeal.Gen
open Idealize.ShloMosaic.Pipeline (Dat)

theorem origin_zero : (![0, 0] : Fin 2 → Nat) = fun _ => 0 := funext fun a => by fin_cases a <;> rfl

/-- `max (a + b, 0)` entry by entry, the one-row array `b` read at the entry's column. -/
def biasRelu (a : FVec Ideal S50000x128 .f32) (b : FVec Ideal S1x128 .f32) : FVec Ideal S50000x128 .f32 :=
  fun i => max (a i + b (ValueIdx.ix2 (0 : Fin 1) (⟨(i 1).val, (i 1).isLt⟩ : Fin 128))) (Ideal.ofBits .f32 0x00000000#32)

/-- `a + b` entry by entry, the one-row array `b` read at the entry's column. -/
def biasAdd (a : FVec Ideal S50000x128 .f32) (b : FVec Ideal S1x128 .f32) : FVec Ideal S50000x128 .f32 :=
  fun i => a i + b (ValueIdx.ix2 (0 : Fin 1) (⟨(i 1).val, (i 1).isLt⟩ : Fin 128))

variable (V : (c : Dev nD) → (b : Ref sig .tc) → Buf (Elt Ideal) ((c : Thread nD τ).loc b))

/-! ## Region 1 -/

/-- Each row block of the aggregated array moves with the output's block down the rows; the bias row is one block. -/
theorem blocks1 : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every one of the 10 row blocks is some grid point's. -/
theorem blocks1_onto : ∀ q : Fin 10, ∃ t : Fin cfg1.N, win1_2.index t = ![q.val, 0] :=
  (by decide +kernel : ∀ q : Fin 10, ∃ t : Fin grid1.N, win1_2.index t = ![q.val, 0])

/-- The body's one stored value at entry (p, q): the block's entry plus the bias row's entry q, floored at zero (the casts to the same
    shape are the identity, the row is broadcast down the block). -/
theorem stored1_apply (x0 : Vec Ideal S5000x128 .f32) (x1 : Vec Ideal S1x128 .f32) (p : Fin 5000) (q : Fin 128) :
    k1_pay1 (F := Ideal) x0 x1 (ValueIdx.ix2 p q) = max (x0 (ValueIdx.ix2 p q) + x1 (ValueIdx.ix2 (0 : Fin 1) q)) (Ideal.ofBits .f32 0x00000000#32) := by
  unfold k1_pay1
  rw [shapeCast_self, shapeCast_self]
  show max (x0 (ValueIdx.ix2 p q) + broadcastTo S5000x128 x1 broadcasts_S1x128_S5000x128 (ValueIdx.ix2 p q)) _ = _
  rw [ValueIdx.broadcastTo_1b_ab_apply]
  rfl

/-- What grid point `t` writes back is block `t` of the whole-array function of the two arrays as the region finds them. -/
theorem flushed1_eq (c : Dev nD) (t : Fin cfg1.N) :
    (dat1 V c).flushed 2 t = ((cfg1.win 2).blk t).view.read (Elt Ideal) (biasRelu (V c main_v45) (V c main_v46)) := by
  show (cfg1.win 2).cut (grid1.coords t) ((dat1 V c).after 2 t) = _
  rw [after1_2]
  unfold out1_2
  rw [View.canon_unit_zero origin_zero]
  simp only [View.ld_unit_zero (S := S5000x128) origin_zero, View.ld_unit_zero (S := S1x128) origin_zero]
  obtain ⟨e0, e1, e2, e3, e4, e5⟩ := blocks1 t
  funext j
  obtain ⟨p, q, rfl⟩ : ∃ (p : Fin 5000) (q : Fin 128), j = ValueIdx.ix2 p q := ⟨j 0, j 1, ValueIdx.eq_ix2 j⟩
  refine (stored1_apply (iblk1 V c 0 t) (iblk1 V c 1 t) p q).trans ?_
  have ha : iblk1 V c 0 t (ValueIdx.ix2 p q) = V c main_v45 (((cfg1.win 2).blk t).view.emb (ValueIdx.ix2 p q)) := by
    show V c main_v45 (((cfg1.win 0).blk t).view.emb (ValueIdx.ix2 p q)) = _
    refine congrArg (V c main_v45) (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have hb : iblk1 V c 1 t (ValueIdx.ix2 (0 : Fin 1) q) = V c main_v46 (ValueIdx.ix2 (0 : Fin 1) (⟨((((cfg1.win 2).blk t).view.emb (ValueIdx.ix2 p q)) 1).val, ((((cfg1.win 2).blk t).view.emb (ValueIdx.ix2 p q)) 1).isLt⟩ : Fin 128)) := by
    show V c main_v46 (((cfg1.win 1).blk t).view.emb (ValueIdx.ix2 (0 : Fin 1) q)) = _
    refine congrArg (V c main_v46) (funext fun a => Fin.ext ?_)
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [ha, hb]
  rfl

/-- An index of the output array is in point `t`'s block iff each coordinate is in the block's range on its axis. -/
theorem mem_block1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- Row `r` of the output lies in the block of the point whose block index is `r / 5000`. -/
theorem covered1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := blocks1_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After region 1 its output array is that function of the two arrays it read. -/
theorem region1_eq (c : Dev nD) :
    (dat1 V c).arrAt 2 cfg1.N = biasRelu (V c main_v45) (V c main_v46) :=
  (dat1 V c).arrAt_eq_of_cover 2 _ (fun t _ => flushed1_eq V c t) (covered1)

/-! ## Region 3 -/

/-- Each row block of the aggregated array moves with the output's block down the rows; the bias row is one block. -/
theorem blocks3 : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every one of the 10 row blocks is some grid point's. -/
theorem blocks3_onto : ∀ q : Fin 10, ∃ t : Fin cfg3.N, win3_2.index t = ![q.val, 0] :=
  (by decide +kernel : ∀ q : Fin 10, ∃ t : Fin grid3.N, win3_2.index t = ![q.val, 0])

/-- The body's one stored value at entry (p, q): the block's entry plus the bias row's entry q (the casts to the same
    shape are the identity, the row is broadcast down the block). -/
theorem stored3_apply (x0 : Vec Ideal S5000x128 .f32) (x1 : Vec Ideal S1x128 .f32) (p : Fin 5000) (q : Fin 128) :
    k3_pay1 (F := Ideal) x0 x1 (ValueIdx.ix2 p q) = x0 (ValueIdx.ix2 p q) + x1 (ValueIdx.ix2 (0 : Fin 1) q) := by
  unfold k3_pay1
  rw [shapeCast_self, shapeCast_self]
  show x0 (ValueIdx.ix2 p q) + broadcastTo S5000x128 x1 broadcasts_S1x128_S5000x128 (ValueIdx.ix2 p q) = _
  rw [ValueIdx.broadcastTo_1b_ab_apply]

/-- What grid point `t` writes back is block `t` of the whole-array function of the two arrays as the region finds them. -/
theorem flushed3_eq (c : Dev nD) (t : Fin cfg3.N) :
    (dat3 V c).flushed 2 t = ((cfg3.win 2).blk t).view.read (Elt Ideal) (biasAdd (V c main_v61) (V c main_v62)) := by
  show (cfg3.win 2).cut (grid3.coords t) ((dat3 V c).after 2 t) = _
  rw [after3_2]
  unfold out3_2
  rw [View.canon_unit_zero origin_zero]
  simp only [View.ld_unit_zero (S := S5000x128) origin_zero, View.ld_unit_zero (S := S1x128) origin_zero]
  obtain ⟨e0, e1, e2, e3, e4, e5⟩ := blocks3 t
  funext j
  obtain ⟨p, q, rfl⟩ : ∃ (p : Fin 5000) (q : Fin 128), j = ValueIdx.ix2 p q := ⟨j 0, j 1, ValueIdx.eq_ix2 j⟩
  refine (stored3_apply (iblk3 V c 0 t) (iblk3 V c 1 t) p q).trans ?_
  have ha : iblk3 V c 0 t (ValueIdx.ix2 p q) = V c main_v61 (((cfg3.win 2).blk t).view.emb (ValueIdx.ix2 p q)) := by
    show V c main_v61 (((cfg3.win 0).blk t).view.emb (ValueIdx.ix2 p q)) = _
    refine congrArg (V c main_v61) (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * q.val = win3_2.index t (1 : Fin 2) * 128 + 1 * q.val; omega
  have hb : iblk3 V c 1 t (ValueIdx.ix2 (0 : Fin 1) q) = V c main_v62 (ValueIdx.ix2 (0 : Fin 1) (⟨((((cfg3.win 2).blk t).view.emb (ValueIdx.ix2 p q)) 1).val, ((((cfg3.win 2).blk t).view.emb (ValueIdx.ix2 p q)) 1).isLt⟩ : Fin 128)) := by
    show V c main_v62 (((cfg3.win 1).blk t).view.emb (ValueIdx.ix2 (0 : Fin 1) q)) = _
    refine congrArg (V c main_v62) (funext fun a => Fin.ext ?_)
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  rw [ha, hb]
  rfl

/-- An index of the output array is in point `t`'s block iff each coordinate is in the block's range on its axis. -/
theorem mem_block3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v63).slice (win3_2.rect t)).set ↔ _
  rw [View.set_slice_whole, Rect.mem_set_unit]
  exact Iff.rfl

/-- Row `r` of the output lies in the block of the point whose block index is `r / 5000`. -/
theorem covered3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := blocks3_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After region 3 its output array is that function of the two arrays it read. -/
theorem region3_eq (c : Dev nD) :
    (dat3 V c).arrAt 2 cfg3.N = biasAdd (V c main_v61) (V c main_v62) :=
  (dat3 V c).arrAt_eq_of_cover 2 _ (fun t _ => flushed3_eq V c t) (covered3)

end Cert.KernelIdeal.BiasRegions

end
-- ==== Proof.Fold.lean ====
/-
  The kernel program's result as a function of its six arguments.

  @main is nine segments: three stretches of host operations (the two index vectors with their self loops, the degree
  count and its inverse square root, the per-edge weight), the first product kernel, the first aggregation (gather rows,
  scale by the edge weight, scatter-add) with the bias row's reshape, the bias-and-floor kernel, the second product kernel,
  the second aggregation, and the last bias kernel. The generated frame names the buffer contents at every segment
  boundary (`W0` ... `W9`). This module walks the result buffer back through those boundaries: each kernel region's
  output array is one whole-array function of the arrays it read (the two region modules), each host stretch's result is
  its operations applied to what the stretch found, and a buffer no segment writes keeps its contents. The vocabulary
  is the reference's own stages: a host operation both programs print is the same function on both sides, so the walk
  ends at the reference's last stage `val_main_v66` of the kernel's arguments.
-/
import proofs.«144677_j40587440947893_1_alg».proof.Proof.Gen.KernelIdeal.Frame
import proofs.«144677_j40587440947893_1_alg».proof.Proof.RefRead
import proofs.«144677_j40587440947893_1_alg».proof.Proof.MatmulRegions
import proofs.«144677_j40587440947893_1_alg».proof.Proof.BiasRegions
import Idealize.ShloMosaic.Lib.StableHlo.Run
import Idealize.ShloMosaic.Lib.ValueIdx
import Idealize.ShloMosaic.Lib.ValueLayout

set_option maxRecDepth 16384

noncomputable section

namespace Cert.KernelIdeal.Fold

open Idealize.ShloMosaic Idealize.ShloMosaic.TcCoe Idealize.SL.Sem
open Cert.KernelIdeal Cert.KernelIdeal.Gen
open Cert.ReferenceIdeal.ReadP

variable (m : (ℓ : Loc nD τ sig) → Buf (Elt Ideal) ℓ) (ρ : Dev nD → PrngReg)

/-- A buffer that no operation of a host stretch writes keeps its contents through the stretch: the goal
    `after ops V b = V b`, every operation's result buffer being another reference than `b`. -/
local macro "keeps_through " ops:ident : tactic =>
  `(tactic| (refine StableHlo.after_of_forall_not_mem _ _ (List.forall_iff_forall_mem.mp ?_)
             simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-! ## The host operations before the first kernel, stretch by stretch -/

/-- The source index vector (the edge list's first row, then the self loops). -/
theorem s1_row (c : Dev nD) : W1 m ρ c (Proc.devRef .tc main_v3) = val_main_v3 (F := Ideal) (m ((c : Thread nD τ).loc main_arg5)) := by
  show StableHlo.after hostOps0 (W0 m ρ c) (Proc.devRef .tc main_v3) = _
  after_results
  rfl

/-- The target index vector (the edge list's second row, then the self loops). -/
theorem s1_col (c : Dev nD) : W1 m ρ c (Proc.devRef .tc main_v6) = val_main_v6 (F := Ideal) (m ((c : Thread nD τ).loc main_arg5)) := by
  show StableHlo.after hostOps0 (W0 m ρ c) (Proc.devRef .tc main_v6) = _
  after_results
  rfl

/-- Which nodes have a positive degree. -/
theorem s1_pos (c : Dev nD) : W1 m ρ c (Proc.devRef .tc main_v12) = val_main_v12 (F := Ideal) (m ((c : Thread nD τ).loc main_arg5)) := by
  show StableHlo.after hostOps0 (W0 m ρ c) (Proc.devRef .tc main_v12) = _
  after_results
  rfl

/-- The inverse square root of each degree floored at one. -/
theorem s1_rsqrt (c : Dev nD) : W1 m ρ c (Proc.devRef .tc main_v15) = val_main_v15 (F := Ideal) (m ((c : Thread nD τ).loc main_arg5)) := by
  show StableHlo.after hostOps0 (W0 m ρ c) (Proc.devRef .tc main_v15) = _
  after_results
  rfl

theorem s1_zero (c : Dev nD) : W1 m ρ c (Proc.devRef .tc main_cst_3) = val_main_cst_3 (F := Ideal) := by
  show StableHlo.after hostOps0 (W0 m ρ c) (Proc.devRef .tc main_cst_3) = _
  after_results
  rfl

/-! The lemmas named `…_of` read one host stretch from ANY contents `X` that hold the stretch's inputs at the named values,
    over any float family: the stretch's operations are then only composed, never evaluated. -/

theorem dis_of {F : FTy → Type} [FloatOps F] (X : Valuation τ sig (Elt F)) (x5 : (⟨S2x800000, .i32⟩ : BufTy).Contents (Elt F))
    (h12 : X (Proc.devRef .tc main_v12) = val_main_v12 (F := F) x5)
    (h15 : X (Proc.devRef .tc main_v15) = val_main_v15 (F := F) x5)
    (hz : X (Proc.devRef .tc main_cst_3) = val_main_cst_3 (F := F)) :
    StableHlo.after hostOps0_1 X (Proc.devRef .tc main_v16) = val_main_v16 (F := F) x5 := by
  after_results_simp
  rw [h12, h15, hz]
  rfl

/-- The normalisation factor of each node: that inverse square root where the degree is positive, else zero. -/
theorem s2_dis (c : Dev nD) : W2 m ρ c (Proc.devRef .tc main_v16) = val_main_v16 (F := Ideal) (m ((c : Thread nD τ).loc main_arg5)) :=
  dis_of (F := Ideal) (W1 m ρ c) (m ((c : Thread nD τ).loc main_arg5)) (s1_pos m ρ c) (s1_rsqrt m ρ c) (s1_zero m ρ c)

theorem s2_row (c : Dev nD) : W2 m ρ c (Proc.devRef .tc main_v3) = val_main_v3 (F := Ideal) (m ((c : Thread nD τ).loc main_arg5)) :=
  (by keeps_through hostOps0_1 : W2 m ρ c (Proc.devRef .tc main_v3) = W1 m ρ c (Proc.devRef .tc main_v3)).trans (s1_row m ρ c)

theorem s2_col (c : Dev nD) : W2 m ρ c (Proc.devRef .tc main_v6) = val_main_v6 (F := Ideal) (m ((c : Thread nD τ).loc main_arg5)) :=
  (by keeps_through hostOps0_1 : W2 m ρ c (Proc.devRef .tc main_v6) = W1 m ρ c (Proc.devRef .tc main_v6)).trans (s1_col m ρ c)

/-! ## At the first kernel's entry: the index vectors, the edge weight, the arguments -/

theorem weight_of {F : FTy → Type} [FloatOps F] (X : Valuation τ sig (Elt F)) (x5 : (⟨S2x800000, .i32⟩ : BufTy).Contents (Elt F))
    (h16 : X (Proc.devRef .tc main_v16) = val_main_v16 (F := F) x5)
    (h3 : X (Proc.devRef .tc main_v3) = val_main_v3 (F := F) x5)
    (h6 : X (Proc.devRef .tc main_v6) = val_main_v6 (F := F) x5) :
    StableHlo.after hostOps0_2 X (Proc.devRef .tc main_v31) = val_main_v31 (F := F) x5 := by
  after_results_simp
  rw [h16, h3, h6]
  rfl

/-- The per-edge weight: the two end points' normalisation factors, multiplied. -/
theorem entry_weight (c : Dev nD) : W3 m ρ c (Proc.devRef .tc main_v31) = val_main_v31 (F := Ideal) (m ((c : Thread nD τ).loc main_arg5)) :=
  weight_of (F := Ideal) (W2 m ρ c) (m ((c : Thread nD τ).loc main_arg5)) (s2_dis m ρ c) (s2_row m ρ c) (s2_col m ρ c)

theorem entry_row (c : Dev nD) : W3 m ρ c (Proc.devRef .tc main_v3) = val_main_v3 (F := Ideal) (m ((c : Thread nD τ).loc main_arg5)) :=
  (by keeps_through hostOps0_2 : W3 m ρ c (Proc.devRef .tc main_v3) = W2 m ρ c (Proc.devRef .tc main_v3)).trans (s2_row m ρ c)

theorem entry_col (c : Dev nD) : W3 m ρ c (Proc.devRef .tc main_v6) = val_main_v6 (F := Ideal) (m ((c : Thread nD τ).loc main_arg5)) :=
  (by keeps_through hostOps0_2 : W3 m ρ c (Proc.devRef .tc main_v6) = W2 m ρ c (Proc.devRef .tc main_v6)).trans (s2_col m ρ c)

theorem entry_arg0 (c : Dev nD) : W3 m ρ c (Proc.devRef .tc main_arg0) = (m ((c : Thread nD τ).loc main_arg0)) :=
  (by keeps_through hostOps0_2 : W3 m ρ c (Proc.devRef .tc main_arg0) = W2 m ρ c (Proc.devRef .tc main_arg0)).trans
    ((by keeps_through hostOps0_1 : W2 m ρ c (Proc.devRef .tc main_arg0) = W1 m ρ c (Proc.devRef .tc main_arg0)).trans
      (by keeps_through hostOps0 : W1 m ρ c (Proc.devRef .tc main_arg0) = W0 m ρ c (Proc.devRef .tc main_arg0)))
theorem entry_arg1 (c : Dev nD) : W3 m ρ c (Proc.devRef .tc main_arg1) = (m ((c : Thread nD τ).loc main_arg1)) :=
  (by keeps_through hostOps0_2 : W3 m ρ c (Proc.devRef .tc main_arg1) = W2 m ρ c (Proc.devRef .tc main_arg1)).trans
    ((by keeps_through hostOps0_1 : W2 m ρ c (Proc.devRef .tc main_arg1) = W1 m ρ c (Proc.devRef .tc main_arg1)).trans
      (by keeps_through hostOps0 : W1 m ρ c (Proc.devRef .tc main_arg1) = W0 m ρ c (Proc.devRef .tc main_arg1)))
theorem entry_arg2 (c : Dev nD) : W3 m ρ c (Proc.devRef .tc main_arg2) = (m ((c : Thread nD τ).loc main_arg2)) :=
  (by keeps_through hostOps0_2 : W3 m ρ c (Proc.devRef .tc main_arg2) = W2 m ρ c (Proc.devRef .tc main_arg2)).trans
    ((by keeps_through hostOps0_1 : W2 m ρ c (Proc.devRef .tc main_arg2) = W1 m ρ c (Proc.devRef .tc main_arg2)).trans
      (by keeps_through hostOps0 : W1 m ρ c (Proc.devRef .tc main_arg2) = W0 m ρ c (Proc.devRef .tc main_arg2)))
theorem entry_arg3 (c : Dev nD) : W3 m ρ c (Proc.devRef .tc main_arg3) = (m ((c : Thread nD τ).loc main_arg3)) :=
  (by keeps_through hostOps0_2 : W3 m ρ c (Proc.devRef .tc main_arg3) = W2 m ρ c (Proc.devRef .tc main_arg3)).trans
    ((by keeps_through hostOps0_1 : W2 m ρ c (Proc.devRef .tc main_arg3) = W1 m ρ c (Proc.devRef .tc main_arg3)).trans
      (by keeps_through hostOps0 : W1 m ρ c (Proc.devRef .tc main_arg3) = W0 m ρ c (Proc.devRef .tc main_arg3)))
theorem entry_arg4 (c : Dev nD) : W3 m ρ c (Proc.devRef .tc main_arg4) = (m ((c : Thread nD τ).loc main_arg4)) :=
  (by keeps_through hostOps0_2 : W3 m ρ c (Proc.devRef .tc main_arg4) = W2 m ρ c (Proc.devRef .tc main_arg4)).trans
    ((by keeps_through hostOps0_1 : W2 m ρ c (Proc.devRef .tc main_arg4) = W1 m ρ c (Proc.devRef .tc main_arg4)).trans
      (by keeps_through hostOps0 : W1 m ρ c (Proc.devRef .tc main_arg4) = W0 m ρ c (Proc.devRef .tc main_arg4)))

/-! ## After the first product kernel -/

/-- The first kernel's output: the features times the first weight matrix. -/
theorem after0_product (c : Dev nD) : W4 m ρ c (Proc.devRef .tc main_v32) = val_main_v32 (F := Ideal) (m ((c : Thread nD τ).loc main_arg0)) (m ((c : Thread nD τ).loc main_arg1)) :=
  (W4_arr m ρ c 2).trans ((MatmulRegions.region0_eq (V3 m ρ) c).trans (by
    rw [show V3 m ρ c main_arg0 = (m ((c : Thread nD τ).loc main_arg0)) from entry_arg0 m ρ c, show V3 m ρ c main_arg1 = (m ((c : Thread nD τ).loc main_arg1)) from entry_arg1 m ρ c]))

theorem after0_row (c : Dev nD) : W4 m ρ c (Proc.devRef .tc main_v3) = val_main_v3 (F := Ideal) (m ((c : Thread nD τ).loc main_arg5)) :=
  (W4_of_ne m ρ c main_v3 (by decide)).trans (entry_row m ρ c)

theorem after0_col (c : Dev nD) : W4 m ρ c (Proc.devRef .tc main_v6) = val_main_v6 (F := Ideal) (m ((c : Thread nD τ).loc main_arg5)) :=
  (W4_of_ne m ρ c main_v6 (by decide)).trans (entry_col m ρ c)

theorem after0_weight (c : Dev nD) : W4 m ρ c (Proc.devRef .tc main_v31) = val_main_v31 (F := Ideal) (m ((c : Thread nD τ).loc main_arg5)) :=
  (W4_of_ne m ρ c main_v31 (by decide)).trans (entry_weight m ρ c)

theorem after0_arg2 (c : Dev nD) : W4 m ρ c (Proc.devRef .tc main_arg2) = (m ((c : Thread nD τ).loc main_arg2)) :=
  (W4_of_ne m ρ c main_arg2 (by decide)).trans (entry_arg2 m ρ c)
theorem after0_arg3 (c : Dev nD) : W4 m ρ c (Proc.devRef .tc main_arg3) = (m ((c : Thread nD τ).loc main_arg3)) :=
  (W4_of_ne m ρ c main_arg3 (by decide)).trans (entry_arg3 m ρ c)
theorem after0_arg4 (c : Dev nD) : W4 m ρ c (Proc.devRef .tc main_arg4) = (m ((c : Thread nD τ).loc main_arg4)) :=
  (W4_of_ne m ρ c main_arg4 (by decide)).trans (entry_arg4 m ρ c)

/-! ## The first aggregation -/

theorem agg1_of {F : FTy → Type} [FloatOps F] (X : Valuation τ sig (Elt F)) (x0 : (⟨S50000x128, .f32⟩ : BufTy).Contents (Elt F)) (x1 : (⟨S128x128, .f32⟩ : BufTy).Contents (Elt F)) (x5 : (⟨S2x800000, .i32⟩ : BufTy).Contents (Elt F))
    (hp : X (Proc.devRef .tc main_v32) = val_main_v32 (F := F) x0 x1)
    (h3 : X (Proc.devRef .tc main_v3) = val_main_v3 (F := F) x5)
    (h6 : X (Proc.devRef .tc main_v6) = val_main_v6 (F := F) x5)
    (hw : X (Proc.devRef .tc main_v31) = val_main_v31 (F := F) x5) :
    StableHlo.after hostOps1 X (Proc.devRef .tc main_v45) = val_main_v45 (F := F) x0 x1 x5 := by
  after_results_simp
  rw [hp, h3, h6, hw]
  rfl

/-- Gather the product's rows at the sources, scale by the edge weight, scatter-add at the targets. -/
theorem agg1 (c : Dev nD) : W5 m ρ c (Proc.devRef .tc main_v45) = val_main_v45 (F := Ideal) (m ((c : Thread nD τ).loc main_arg0)) (m ((c : Thread nD τ).loc main_arg1)) (m ((c : Thread nD τ).loc main_arg5)) :=
  agg1_of (F := Ideal) (W4 m ρ c) (m ((c : Thread nD τ).loc main_arg0)) (m ((c : Thread nD τ).loc main_arg1)) (m ((c : Thread nD τ).loc main_arg5)) (after0_product m ρ c) (after0_row m ρ c) (after0_col m ρ c) (after0_weight m ρ c)

theorem bias1_of {F : FTy → Type} [FloatOps F] (X : Valuation τ sig (Elt F)) (x2 : (⟨S128, .f32⟩ : BufTy).Contents (Elt F))
    (hb : X (Proc.devRef .tc main_arg2) = x2) :
    StableHlo.after hostOps1 X (Proc.devRef .tc main_v46) = shapeCast S1x128 x2 shapeCasts_S128_S1x128 := by
  after_results_simp
  rw [hb]
  rfl

/-- The first bias vector as one row. -/
theorem bias1_row (c : Dev nD) : W5 m ρ c (Proc.devRef .tc main_v46) = shapeCast S1x128 (m ((c : Thread nD τ).loc main_arg2)) shapeCasts_S128_S1x128 :=
  bias1_of (F := Ideal) (W4 m ρ c) (m ((c : Thread nD τ).loc main_arg2)) (after0_arg2 m ρ c)

theorem mid_row (c : Dev nD) : W5 m ρ c (Proc.devRef .tc main_v3) = val_main_v3 (F := Ideal) (m ((c : Thread nD τ).loc main_arg5)) :=
  (by keeps_through hostOps1 : W5 m ρ c (Proc.devRef .tc main_v3) = W4 m ρ c (Proc.devRef .tc main_v3)).trans (after0_row m ρ c)

theorem mid_col (c : Dev nD) : W5 m ρ c (Proc.devRef .tc main_v6) = val_main_v6 (F := Ideal) (m ((c : Thread nD τ).loc main_arg5)) :=
  (by keeps_through hostOps1 : W5 m ρ c (Proc.devRef .tc main_v6) = W4 m ρ c (Proc.devRef .tc main_v6)).trans (after0_col m ρ c)

theorem mid_weight (c : Dev nD) : W5 m ρ c (Proc.devRef .tc main_v31) = val_main_v31 (F := Ideal) (m ((c : Thread nD τ).loc main_arg5)) :=
  (by keeps_through hostOps1 : W5 m ρ c (Proc.devRef .tc main_v31) = W4 m ρ c (Proc.devRef .tc main_v31)).trans (after0_weight m ρ c)

theorem mid_arg3 (c : Dev nD) : W5 m ρ c (Proc.devRef .tc main_arg3) = (m ((c : Thread nD τ).loc main_arg3)) :=
  (by keeps_through hostOps1 : W5 m ρ c (Proc.devRef .tc main_arg3) = W4 m ρ c (Proc.devRef .tc main_arg3)).trans (after0_arg3 m ρ c)

theorem mid_arg4 (c : Dev nD) : W5 m ρ c (Proc.devRef .tc main_arg4) = (m ((c : Thread nD τ).loc main_arg4)) :=
  (by keeps_through hostOps1 : W5 m ρ c (Proc.devRef .tc main_arg4) = W4 m ρ c (Proc.devRef .tc main_arg4)).trans (after0_arg4 m ρ c)

/-! ## The bias-and-floor kernel, then the second product kernel -/

/-- The one-row bias read at column `q` is the bias vector at `q`. -/
theorem row_of_vec (b : FVec Ideal S128 .f32) (q : Fin 128) :
    shapeCast S1x128 b shapeCasts_S128_S1x128 (ValueIdx.ix2 (0 : Fin 1) q) = b (ValueIdx.ix1 q) :=
  ValueIdx.shapeCast_a_1a_apply b shapeCasts_S128_S1x128 (0 : Fin 1) q

/-- The hidden layer: the first aggregation plus the first bias, floored at zero. -/
theorem hidden (c : Dev nD) :
    W6 m ρ c (Proc.devRef .tc main_v47) = val_main_v49 (F := Ideal) (m ((c : Thread nD τ).loc main_arg0)) (m ((c : Thread nD τ).loc main_arg1)) (m ((c : Thread nD τ).loc main_arg2)) (m ((c : Thread nD τ).loc main_arg5)) :=
  (W6_arr m ρ c 2).trans ((BiasRegions.region1_eq (V5 m ρ) c).trans (by
    rw [show V5 m ρ c main_v45 = _ from agg1 m ρ c, show V5 m ρ c main_v46 = _ from bias1_row m ρ c]
    funext i
    have hq : ValueIdx.ix1 (⟨(i 1).val, (i 1).isLt⟩ : Fin 128) = idx_main_v46 (idx_main_v47 i) :=
      funext fun a => by match a with | ⟨0, _⟩ => rfl
    unfold BiasRegions.biasRelu
    rw [row_of_vec, hq, val_main_v49_apply, val_main_v48_apply, val_main_v47_apply, val_main_v46_apply, val_main_call1_v0_apply,
      val_main_call1_cst_apply, Ideal.maximumf_def, Ideal.addf_def, Ideal.ofBits_def]))

theorem after1_arg3 (c : Dev nD) : W6 m ρ c (Proc.devRef .tc main_arg3) = (m ((c : Thread nD τ).loc main_arg3)) :=
  (W6_of_ne m ρ c main_arg3 (by decide)).trans (mid_arg3 m ρ c)

/-- The second kernel's output: the hidden layer times the second weight matrix. -/
theorem after2_product (c : Dev nD) :
    W7 m ρ c (Proc.devRef .tc main_v48) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg5)) :=
  (W7_arr m ρ c 2).trans ((MatmulRegions.region2_eq (V6 m ρ) c).trans (by
    rw [show V6 m ρ c main_v47 = _ from hidden m ρ c, show V6 m ρ c main_arg3 = (m ((c : Thread nD τ).loc main_arg3)) from after1_arg3 m ρ c]
    rfl))

theorem after2_row (c : Dev nD) : W7 m ρ c (Proc.devRef .tc main_v3) = val_main_v3 (F := Ideal) (m ((c : Thread nD τ).loc main_arg5)) :=
  (W7_of_ne m ρ c main_v3 (by decide)).trans ((W6_of_ne m ρ c main_v3 (by decide)).trans (mid_row m ρ c))
theorem after2_col (c : Dev nD) : W7 m ρ c (Proc.devRef .tc main_v6) = val_main_v6 (F := Ideal) (m ((c : Thread nD τ).loc main_arg5)) :=
  (W7_of_ne m ρ c main_v6 (by decide)).trans ((W6_of_ne m ρ c main_v6 (by decide)).trans (mid_col m ρ c))
theorem after2_weight (c : Dev nD) : W7 m ρ c (Proc.devRef .tc main_v31) = val_main_v31 (F := Ideal) (m ((c : Thread nD τ).loc main_arg5)) :=
  (W7_of_ne m ρ c main_v31 (by decide)).trans ((W6_of_ne m ρ c main_v31 (by decide)).trans (mid_weight m ρ c))
theorem after2_arg4 (c : Dev nD) : W7 m ρ c (Proc.devRef .tc main_arg4) = (m ((c : Thread nD τ).loc main_arg4)) :=
  (W7_of_ne m ρ c main_arg4 (by decide)).trans ((W6_of_ne m ρ c main_arg4 (by decide)).trans (mid_arg4 m ρ c))

/-! ## The second aggregation and the last bias kernel -/

theorem agg2_of {F : FTy → Type} [FloatOps F] (X : Valuation τ sig (Elt F)) (x0 : (⟨S50000x128, .f32⟩ : BufTy).Contents (Elt F)) (x1 : (⟨S128x128, .f32⟩ : BufTy).Contents (Elt F)) (x2 : (⟨S128, .f32⟩ : BufTy).Contents (Elt F)) (x3 : (⟨S128x128, .f32⟩ : BufTy).Contents (Elt F)) (x5 : (⟨S2x800000, .i32⟩ : BufTy).Contents (Elt F))
    (hp : X (Proc.devRef .tc main_v48) = val_main_v50 (F := F) x0 x1 x2 x3 x5)
    (h3 : X (Proc.devRef .tc main_v3) = val_main_v3 (F := F) x5)
    (h6 : X (Proc.devRef .tc main_v6) = val_main_v6 (F := F) x5)
    (hw : X (Proc.devRef .tc main_v31) = val_main_v31 (F := F) x5) :
    StableHlo.after hostOps3 X (Proc.devRef .tc main_v61) = val_main_v63 (F := F) x0 x1 x2 x3 x5 := by
  after_results_simp
  rw [hp, h3, h6, hw]
  rfl

/-- The same aggregation of the second product. -/
theorem agg2 (c : Dev nD) : W8 m ρ c (Proc.devRef .tc main_v61) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg5)) :=
  agg2_of (F := Ideal) (W7 m ρ c) (m ((c : Thread nD τ).loc main_arg0)) (m ((c : Thread nD τ).loc main_arg1)) (m ((c : Thread nD τ).loc main_arg2)) (m ((c : Thread nD τ).loc main_arg3)) (m ((c : Thread nD τ).loc main_arg5)) (after2_product m ρ c) (after2_row m ρ c) (after2_col m ρ c) (after2_weight m ρ c)

theorem bias2_of {F : FTy → Type} [FloatOps F] (X : Valuation τ sig (Elt F)) (x4 : (⟨S128, .f32⟩ : BufTy).Contents (Elt F))
    (hb : X (Proc.devRef .tc main_arg4) = x4) :
    StableHlo.after hostOps3 X (Proc.devRef .tc main_v62) = shapeCast S1x128 x4 shapeCasts_S128_S1x128 := by
  after_results_simp
  rw [hb]
  rfl

/-- The second bias vector as one row. -/
theorem bias2_row (c : Dev nD) : W8 m ρ c (Proc.devRef .tc main_v62) = shapeCast S1x128 (m ((c : Thread nD τ).loc main_arg4)) shapeCasts_S128_S1x128 :=
  bias2_of (F := Ideal) (W7 m ρ c) (m ((c : Thread nD τ).loc main_arg4)) (after2_arg4 m ρ c)

/-- THE RESULT: the second aggregation plus the second bias -- the reference's last stage of the kernel's arguments. -/
theorem result_eq (c : Dev nD) :
    W9 m ρ c (Proc.devRef .tc main_v63) = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W9_arr m ρ c 2).trans ((BiasRegions.region3_eq (V8 m ρ) c).trans (by
    rw [show V8 m ρ c main_v61 = _ from agg2 m ρ c, show V8 m ρ c main_v62 = _ from bias2_row m ρ c]
    funext i
    have hq : ValueIdx.ix1 (⟨(i 1).val, (i 1).isLt⟩ : Fin 128) = idx_main_v64 (idx_main_v65 i) :=
      funext fun a => by match a with | ⟨0, _⟩ => rfl
    unfold BiasRegions.biasAdd
    rw [row_of_vec, hq, val_main_v66_apply, val_main_v65_apply, val_main_v64_apply, Ideal.addf_def]))

end Cert.KernelIdeal.Fold

end
-- ==== Proof.lean ====
/-
  A two-layer graph convolution. Both programs build, on the host, the source and target index vectors (the edge list's
  two rows with a self loop per node appended), the degree of every node, its inverse square root, and the per-edge
  weight; both then compute, twice, "multiply by a weight matrix, gather the product's rows at the sources, scale by
  the edge weight, scatter-add at the targets, add a bias", with a floor at zero between the two layers. The kernel
  program differs only in HOW it multiplies and adds the bias: the product runs as a kernel over 25 row blocks, each
  block times the whole 128 x 128 matrix into a zero accumulator, and the bias (with the floor, in the first layer)
  as a kernel over 10 row blocks with the bias broadcast from one row. Over the extended reals a block's entry of
  the product is the same sum over the 128 inner positions as the whole product's entry, and the bias kernels compute
  entry by entry what the reference's broadcast-and-add computes; the host operations are the same functions on both
  sides. So the kernel's result array is the reference's last stage applied to the kernel's arguments (Proof/Fold.lean),
  and the reference's run ends at that stage of its own arguments, which agree.
-/
import proofs.«144677_j40587440947893_1_alg».proof.Defs
import proofs.«144677_j40587440947893_1_alg».proof.Proof.Gen.Kernel
import proofs.«144677_j40587440947893_1_alg».proof.Proof.Gen.Kernel.Skeleton
import proofs.«144677_j40587440947893_1_alg».proof.Proof.Gen.Kernel.Launch
import proofs.«144677_j40587440947893_1_alg».proof.Proof.Gen.Kernel.Points
import proofs.«144677_j40587440947893_1_alg».proof.Proof.Gen.Kernel.Frame
import proofs.«144677_j40587440947893_1_alg».proof.Proof.Gen.KernelIdeal
import proofs.«144677_j40587440947893_1_alg».proof.Proof.Gen.KernelIdeal.Skeleton
import proofs.«144677_j40587440947893_1_alg».proof.Proof.Gen.KernelIdeal.Launch
import proofs.«144677_j40587440947893_1_alg».proof.Proof.Gen.KernelIdeal.Points
import proofs.«144677_j40587440947893_1_alg».proof.Proof.Gen.KernelIdeal.Frame
import proofs.«144677_j40587440947893_1_alg».proof.Proof.Gen.ReferenceIdeal
import proofs.«144677_j40587440947893_1_alg».proof.Proof.Gen.Pre_finite_inputs
import proofs.«144677_j40587440947893_1_alg».proof.Proof.RefRun
import proofs.«144677_j40587440947893_1_alg».proof.Proof.RefRead
import proofs.«144677_j40587440947893_1_alg».proof.Proof.NamedRun
import proofs.«144677_j40587440947893_1_alg».proof.Proof.Fold
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the result at the reference's last stage of the (agreeing) arguments. -/
theorem algebraic : Cert.algebraic_KernelIdeal_ReferenceIdeal := by
  intro m ρ m' ρ' _ hagree
  refine ⟨fun c => Cert.ReferenceIdeal.ReadP.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.result_eq m ρ c), (h c).2⟩)
      (Cert.KernelIdeal.NamedRun.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v66_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
